-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x4096x2048 : Shape := ⟨3, ![8, 4096, 2048]⟩
abbrev S8x4096 : Shape := ⟨2, ![8, 4096]⟩
abbrev S8x2048x4096 : Shape := ⟨3, ![8, 2048, 4096]⟩
abbrev S8x2048 : Shape := ⟨2, ![8, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048x4096 .f32) (main_arg5 : FVec F S8x2048 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S8x2048x4096 .f32 := Host.absf main_arg4
  let main_cst_6 : FVec F S_ .f32 := constant S_ .f32 0x7F800000#32
  let main_v20 : FVec F S8x2048x4096 .f32 := broadcastInDim S8x2048x4096 ![] bcast_S_S8x2048x4096 main_cst_6
  let main_v21 : IVec S8x2048x4096 1 := cmpf .olt main_v19 main_v20
  let main_c_7 : IVec S_ 1 := constantI S_ 1 1#1
  let main_v22 : IVec S_ 1 := (fun x v => Host.reduce IntOp.andi x v reducesTo_S8x2048x4096_S_d0_1_2 h_S_) main_v21 main_c_7
  let main_v23 : IVec S_ 1 := andi main_v18 main_v22
  let main_v24 : FVec F S8x2048 .f32 := Host.absf main_arg5
  let main_cst_8 : FVec F S_ .f32 := constant S_ .f32 0x7F800000#32
  let main_v25 : FVec F S8x2048 .f32 := broadcastInDim S8x2048 ![] bcast_S_S8x2048 main_cst_8
  let main_v26 : IVec S8x2048 1 := cmpf .olt main_v24 main_v25
  let main_c_9 : IVec S_ 1 := constantI S_ 1 1#1
  let main_v27 : IVec S_ 1 := (fun x v => Host.reduce IntOp.andi x v reducesTo_S8x2048_S_d0_1 h_S_) main_v26 main_c_9
  let main_v28 : IVec S_ 1 := andi main_v23 main_v27
  main_v28

def fn {F : FTy → Type} [FloatOps F] (main_arg0 : FVec F S8x1024x2048 .f32) (main_arg1 : FVec F S8x1024x2048 .f32) (main_arg2 : FVec F S8x4096x2048 .f32) (main_arg3 : FVec F S8x4096 .f32) (main_arg4 : FVec F S8x2048x4096 .f32) (main_arg5 : FVec F S8x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_arg5 main_v13 main_v16
-- ==== Kernel.lean ====
abbrev S8x1024x2048 : Shape := ⟨3, ![8, 1024, 2048]⟩
abbrev S8x4096x2048 : Shape := ⟨3, ![8, 4096, 2048]⟩
abbrev S8x4096 : Shape := ⟨2, ![8, 4096]⟩
abbrev S8x2048x4096 : Shape := ⟨3, ![8, 2048, 4096]⟩
abbrev S8x2048 : Shape := ⟨2, ![8, 2048]⟩
abbrev S64x1x512 : Shape := ⟨3, ![64, 1, 512]⟩
abbrev S8x1x2048 : Shape := ⟨3, ![8, 1, 2048]⟩
abbrev S1x1024x2048 : Shape := ⟨3, ![1, 1024, 2048]⟩
abbrev S1x512x2048 : Shape := ⟨3, ![1, 512, 2048]⟩
abbrev S1x1x512 : Shape := ⟨3, ![1, 1, 512]⟩
abbrev S1x2048x512 : Shape := ⟨3, ![1, 2048, 512]⟩
abbrev S1x1x2048 : Shape := ⟨3, ![1, 1, 2048]⟩
abbrev S1024x2048 : Shape := ⟨2, ![1024, 2048]⟩
abbrev S512x2048 : Shape := ⟨2, ![512, 2048]⟩
abbrev S1024x512 : Shape := ⟨2, ![1024, 512]⟩
abbrev S1x512 : Shape := ⟨2, ![1, 512]⟩
abbrev S2048x512 : Shape := ⟨2, ![2048, 512]⟩
abbrev S1x2048 : Shape := ⟨2, ![1, 2048]⟩

abbrev nBuf : Space → Nat
  | .hbm => 13
  | .vmem => 14
  | .smem => 0
  | _ => 0

abbrev bufTy : (tb : Table) → Fin (tcTables nBuf tb) → BufTy
  | .hbm, ⟨0, _⟩ => ⟨S8x1024x2048, .f32⟩
  | .hbm, ⟨1, _⟩ => ⟨S8x1024x2048, .f32⟩
  | .hbm, ⟨2, _⟩ => ⟨S8x4096x2048, .f32⟩
  | .hbm, ⟨3, _⟩ => ⟨S8x4096, .f32⟩
  | .hbm, ⟨4, _⟩ => ⟨S8x2048x4096, .f32⟩
  | .hbm, ⟨5, _⟩ => ⟨S8x2048, .f32⟩
  | .hbm, ⟨6, _⟩ => ⟨S8x1024x2048, .bf16⟩
  | .hbm, ⟨7, _⟩ => ⟨S8x1024x2048, .bf16⟩
  | .hbm, ⟨8, _⟩ => ⟨S8x4096x2048, .bf16⟩
  | .hbm, ⟨9, _⟩ => ⟨S8x2048x4096, .bf16⟩
  | .hbm, ⟨10, _⟩ => ⟨S64x1x512, .f32⟩
  | .hbm, ⟨11, _⟩ => ⟨S8x1x2048, .f32⟩
  | .hbm, ⟨12, _⟩ => ⟨S8x1024x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x1x512, .f32⟩
  | .local _ .vmem, ⟨7, _⟩ => ⟨S1x1x512, .f32⟩
  | .local _ .vmem, ⟨8, _⟩ => ⟨S1x2048x512, .bf16⟩
  | .local _ .vmem, ⟨9, _⟩ => ⟨S1x2048x512, .bf16⟩
  | .local _ .vmem, ⟨10, _⟩ => ⟨S1x1x2048, .f32⟩
  | .local _ .vmem, ⟨11, _⟩ => ⟨S1x1x2048, .f32⟩
  | .local _ .vmem, ⟨12, _⟩ => ⟨S1x1024x2048, .f32⟩
  | .local _ .vmem, ⟨13, _⟩ => ⟨S1x1024x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v29 : BitVec 1 := Scalar.cmpi .eq arg1 c0_i32
  let v30 : BitVec 32 := Scalar.extui v29
  let c0_i32_19 : BitVec 32 := 0#32
  let v31 : BitVec 1 := Scalar.cmpi .ne v30 c0_i32_19
  v31

def k0_cond2 (i : grid0.Coords) : BitVec 1 :=
  let arg1 : BitVec 32 := BitVec.ofNat 32 (i 1).val
  let c0_i32_20 : BitVec 32 := 0#32
  let v32 : BitVec 1 := Scalar.cmpi .ne arg1 c0_i32_20
  let v33 : BitVec 32 := Scalar.extui v32
  let c0_i32_21 : BitVec 32 := 0#32
  let v34 : BitVec 1 := Scalar.cmpi .ne v33 c0_i32_21
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  shapeCasts_S8x4096_S64x1x512 : S8x4096.ShapeCasts S64x1x512
  shapeCasts_S8x2048_S8x1x2048 : S8x2048.ShapeCasts S8x1x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S1024x2048 : S1x2048.Broadcasts S1024x2048
  shapeCasts_S1024x2048_S1x1024x2048 : S1024x2048.ShapeCasts S1x1024x2048
  dot_S1024x2048_S512x2048_S1024x512_1_1_0_0_n_n_wf : DotDims.WF S1024x2048 S512x2048 S1024x512 [1] [1] [0] [0] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .bf16 = 32 ∨ (Rect.block (s := S8x1024x2048) S1x1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .bf16 = 32 ∨ (Rect.block (s := S8x1024x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x4096x2048.size a
  hwx0_2 : ∀ i : grid0.Coords, EltTy.bits .bf16 = 32 ∨ (Rect.block (s := S8x4096x2048) S1x512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S64x1x512.size a
  hwx0_3 : ∀ i : grid0.Coords, EltTy.bits .f32 = 32 ∨ (Rect.block (s := S64x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S8x2048x4096.size a
  hwx0_4 : ∀ i : grid0.Coords, EltTy.bits .bf16 = 32 ∨ (Rect.block (s := S8x2048x4096) S1x2048x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S8x1x2048.size a
  hwx0_5 : ∀ i : grid0.Coords, EltTy.bits .f32 = 32 ∨ (Rect.block (s := S8x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x2048.size a ≤ S8x1024x2048.size a
  hwx0_6 : ∀ i : grid0.Coords, EltTy.bits .f32 = 32 ∨ (Rect.block (s := S8x1024x2048) S1x1024x2048.size (cc0_transform_6 i) (hinb0_6 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) | ⟨_ + 7, h⟩ => absurd h (Nat.not_lt.2 (Nat.le_add_left _ _))

class Facts : Prop extends Facts₀ where

variable [Facts]
-- ==== ReferenceIdeal.lean ====
abbrev S8x1024x2048 : Shape := ⟨3, ![8, 1024, 2048]⟩
abbrev S8x4096x2048 : Shape := ⟨3, ![8, 4096, 2048]⟩
abbrev S8x4096 : Shape := ⟨2, ![8, 4096]⟩
abbrev S8x2048x4096 : Shape := ⟨3, ![8, 2048, 4096]⟩
abbrev S8x2048 : Shape := ⟨2, ![8, 2048]⟩
abbrev S8x1024x4096 : Shape := ⟨3, ![8, 1024, 4096]⟩
abbrev S8x1x4096 : Shape := ⟨3, ![8, 1, 4096]⟩
abbrev S_ : Shape := ⟨0, ![]⟩
abbrev S8x1x2048 : Shape := ⟨3, ![8, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x1024x2048, .f32⟩
  | .hbm, ⟨2, _⟩ => ⟨S8x4096x2048, .f32⟩
  | .hbm, ⟨3, _⟩ => ⟨S8x4096, .f32⟩
  | .hbm, ⟨4, _⟩ => ⟨S8x2048x4096, .f32⟩
  | .hbm, ⟨5, _⟩ => ⟨S8x2048, .f32⟩
  | .hbm, ⟨6, _⟩ => ⟨S8x1024x2048, .f32⟩
  | .hbm, ⟨7, _⟩ => ⟨S8x2048x4096, .f32⟩
  | .hbm, ⟨8, _⟩ => ⟨S8x1024x4096, .f32⟩
  | .hbm, ⟨9, _⟩ => ⟨S8x1x4096, .f32⟩
  | .hbm, ⟨10, _⟩ => ⟨S8x1024x4096, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S_, .f32⟩
  | .hbm, ⟨15, _⟩ => ⟨S8x1024x4096, .f32⟩
  | .hbm, ⟨16, _⟩ => ⟨S8x1024x4096, .f32⟩
  | .hbm, ⟨17, _⟩ => ⟨S8x1024x4096, .f32⟩
  | .hbm, ⟨18, _⟩ => ⟨S_, .f32⟩
  | .hbm, ⟨19, _⟩ => ⟨S8x1024x4096, .f32⟩
  | .hbm, ⟨20, _⟩ => ⟨S8x1024x4096, .f32⟩
  | .hbm, ⟨21, _⟩ => ⟨S8x1024x4096, .f32⟩
  | .hbm, ⟨22, _⟩ => ⟨S_, .f32⟩
  | .hbm, ⟨23, _⟩ => ⟨S8x1024x4096, .f32⟩
  | .hbm, ⟨24, _⟩ => ⟨S8x1024x4096, .f32⟩
  | .hbm, ⟨25, _⟩ => ⟨S_, .f32⟩
  | .hbm, ⟨26, _⟩ => ⟨S8x1024x4096, .f32⟩
  | .hbm, ⟨27, _⟩ => ⟨S8x1024x4096, .f32⟩
  | .hbm, ⟨28, _⟩ => ⟨S8x1024x4096, .f32⟩
  | .hbm, ⟨29, _⟩ => ⟨S8x4096x2048, .f32⟩
  | .hbm, ⟨30, _⟩ => ⟨S8x1024x2048, .f32⟩
  | .hbm, ⟨31, _⟩ => ⟨S8x1x2048, .f32⟩
  | .hbm, ⟨32, _⟩ => ⟨S8x1024x2048, .f32⟩
  | .hbm, ⟨33, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  transposes_S8x4096x2048_S8x2048x4096_0_2_1 : S8x4096x2048.Transposes [0, 2, 1] S8x2048x4096
  bcast_S8x4096_S8x1x4096_0_2 : S8x4096.BroadcastsInDim S8x1x4096 (![0, 2] : Fin 2 → Fin S8x1x4096.rank)
  bcast_S8x1x4096_S8x1024x4096_0_1_2 : S8x1x4096.BroadcastsInDim S8x1024x4096 (![0, 1, 2] : Fin 3 → Fin S8x1024x4096.rank)
  bcast_S_S8x1024x4096 : S_.BroadcastsInDim S8x1024x4096 (![] : Fin 0 → Fin S8x1024x4096.rank)
  transposes_S8x2048x4096_S8x4096x2048_0_2_1 : S8x2048x4096.Transposes [0, 2, 1] S8x4096x2048
  bcast_S8x2048_S8x1x2048_0_2 : S8x2048.BroadcastsInDim S8x1x2048 (![0, 2] : Fin 2 → Fin S8x1x2048.rank)
  bcast_S8x1x2048_S8x1024x2048_0_1_2 : S8x1x2048.BroadcastsInDim S8x1024x2048 (![0, 1, 2] : Fin 3 → Fin S8x1024x2048.rank)
  dot_S8x1024x2048_S8x2048x4096_S8x1024x4096_2_1_1_2_0_0_wf : DotDims.WF S8x1024x2048 S8x2048x4096 S8x1024x4096 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x4096_S8x1024x4096_2_1_1_2_0_0 : DotDims S8x1024x2048 S8x2048x4096 S8x1024x4096 where
  lhsContracting := [2]
  rhsContracting := [1]
  lhsNonContracting := [1]
  rhsNonContracting := [2]
  lhsBatch := [0]
  rhsBatch := [0]
  wf := dot_S8x1024x2048_S8x2048x4096_S8x1024x4096_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.KernelIdeal.BodyRun.lean ====
/-
  The kernel body, run once for each of the two ways its two guards on the F-tile index can fall at a grid point (e, f):

    f = 0  (the first F-tile of an expert): the body computes the tile's contribution
           o = gelu((x + c) · W1ᵀ + b1) · W2ᵀ and STORES  o + b2  over the whole output block;
    f ≠ 0  (a later F-tile): it LOADS the output block's running contents  acc  and stores  acc + o.

  Each run is stated on arbitrary whole staging memrefs holding arbitrary input blocks, and hands back the
  inputs untouched and the output block with the list of pieces the body stored (one covering store in either
  case).  The runs are generic in the float instance.
-/
import proofs.«105749_g12060268167401_cont_fleet_796_14_alg».proof.Proof.Gen.KernelIdeal.Frame
import proofs.«105749_g12060268167401_cont_fleet_796_14_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The guard of the reset branch holds exactly on the first F-tile of each expert: grid points ≡ 0 (mod 8). -/
theorem reset_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The guard of the accumulate branch holds exactly on the other F-tiles. -/
theorem accum_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

set_option maxHeartbeats 1000000 in
/-- First F-tile: whatever the output block held, the body leaves its stored pieces in it. -/
noncomputable def runReset (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .bf16) (harg4 : arg4.IsWhole) (arg5 : Memref sig .tc .vmem S1x1x512 .f32) (harg5 : arg5.IsWhole) (arg6 : Memref sig .tc .vmem S1x2048x512 .bf16) (harg6 : arg6.IsWhole) (arg7 : Memref sig .tc .vmem S1x1x2048 .f32) (harg7 : arg7.IsWhole) (arg8 : Memref sig .tc .vmem S1x1024x2048 .f32) (harg8 : arg8.IsWhole)
    (h1 : k0_cond1 i = 1#1) (h2 : ¬ k0_cond2 i = 1#1) (x0 x1 : Vec F S1x1024x2048 .bf16) (x2 : Vec F S1x512x2048 .bf16) (x3 : Vec F S1x1x512 .f32) (x4 : Vec F S1x2048x512 .bf16) (x5 : Vec F S1x1x2048 .f32) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, fun E K => ?run⟩
  case run =>
    simp only [cc0__ffn_kernel_eq_skeleton]; unfold cc0__ffn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 1000000 in
/-- A later F-tile: the output block holds the running contents `acc`, which the body reads before it stores. -/
noncomputable def runAccum (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .bf16) (harg4 : arg4.IsWhole) (arg5 : Memref sig .tc .vmem S1x1x512 .f32) (harg5 : arg5.IsWhole) (arg6 : Memref sig .tc .vmem S1x2048x512 .bf16) (harg6 : arg6.IsWhole) (arg7 : Memref sig .tc .vmem S1x1x2048 .f32) (harg7 : arg7.IsWhole) (arg8 : Memref sig .tc .vmem S1x1024x2048 .f32) (harg8 : arg8.IsWhole)
    (h1 : ¬ k0_cond1 i = 1#1) (h2 : k0_cond2 i = 1#1) (x0 x1 : Vec F S1x1024x2048 .bf16) (x2 : Vec F S1x512x2048 .bf16) (x3 : Vec F S1x1x512 .f32) (x4 : Vec F S1x2048x512 .bf16) (x5 : Vec F S1x1x2048 .f32) (acc : Vec F S1x1024x2048 .f32) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, fun E K => ?run⟩
  case run =>
    simp only [cc0__ffn_kernel_eq_skeleton]; unfold cc0__ffn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Hand

end
-- ==== Proof.KernelIdeal.Data.lean ====
/-
  What the output block's staging buffer holds after each grid point, and the pipeline's proof data.

  The grid is (expert e, F-tile f), point t = 8e + f.  On the first F-tile (t ≡ 0 mod 8) the body overwrites the
  output block; on every other point it adds to what the point before left there — the output window's block index
  depends on e only, and the block is written back to the result array only after the last F-tile (t ≡ 7 mod 8),
  so between two points of one expert the buffer is untouched.  `blockAfter` is that recursion.
-/
import proofs.«105749_g12060268167401_cont_fleet_796_14_alg».proof.Proof.KernelIdeal.BodyRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The stored pieces cover the output block -/

theorem coverReset (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .bf16) (harg4 : arg4.IsWhole) (arg5 : Memref sig .tc .vmem S1x1x512 .f32) (harg5 : arg5.IsWhole) (arg6 : Memref sig .tc .vmem S1x2048x512 .bf16) (harg6 : arg6.IsWhole) (arg7 : Memref sig .tc .vmem S1x1x2048 .f32) (harg7 : arg7.IsWhole) (arg8 : Memref sig .tc .vmem S1x1024x2048 .f32) (harg8 : arg8.IsWhole)
    (h1 : k0_cond1 i = 1#1) (h2 : ¬ k0_cond2 i = 1#1) (x0 x1 : Vec F S1x1024x2048 .bf16) (x2 : Vec F S1x512x2048 .bf16) (x3 : Vec F S1x1x512 .f32) (x4 : Vec F S1x2048x512 .bf16) (x5 : Vec F S1x1x2048 .f32) (y : S1x1024x2048.Idx) :
    ∃ pc ∈ (runReset c i arg2 harg2 arg3 harg3 arg4 harg4 arg5 harg5 arg6 harg6 arg7 harg7 arg8 harg8 h1 h2 x0 x1 x2 x3 x4 x5).1, y ∈ pc.1.set :=
  View.cover_of_tiledL (runReset c i arg2 harg2 arg3 harg3 arg4 harg4 arg5 harg5 arg6 harg6 arg7 harg7 arg8 harg8 h1 h2 x0 x1 x2 x3 x4 x5).1 S1x1024x2048.size (by sl_kernel_rfl) y

theorem coverAccum (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .bf16) (harg4 : arg4.IsWhole) (arg5 : Memref sig .tc .vmem S1x1x512 .f32) (harg5 : arg5.IsWhole) (arg6 : Memref sig .tc .vmem S1x2048x512 .bf16) (harg6 : arg6.IsWhole) (arg7 : Memref sig .tc .vmem S1x1x2048 .f32) (harg7 : arg7.IsWhole) (arg8 : Memref sig .tc .vmem S1x1024x2048 .f32) (harg8 : arg8.IsWhole)
    (h1 : ¬ k0_cond1 i = 1#1) (h2 : k0_cond2 i = 1#1) (x0 x1 : Vec F S1x1024x2048 .bf16) (x2 : Vec F S1x512x2048 .bf16) (x3 : Vec F S1x1x512 .f32) (x4 : Vec F S1x2048x512 .bf16) (x5 : Vec F S1x1x2048 .f32) (acc : Vec F S1x1024x2048 .f32) (y : S1x1024x2048.Idx) :
    ∃ pc ∈ (runAccum c i arg2 harg2 arg3 harg3 arg4 harg4 arg5 harg5 arg6 harg6 arg7 harg7 arg8 harg8 h1 h2 x0 x1 x2 x3 x4 x5 acc).1, y ∈ pc.1.set :=
  View.cover_of_tiledL (runAccum c i arg2 harg2 arg3 harg3 arg4 harg4 arg5 harg5 arg6 harg6 arg7 harg7 arg8 harg8 h1 h2 x0 x1 x2 x3 x4 x5 acc).1 S1x1024x2048.size (by sl_kernel_rfl) y

/-- A view of the output block's shape through which the stored pieces are read back (which buffer is immaterial:
    the pieces cover the block). -/
abbrev outView : View sig .tc .vmem S1x1024x2048 .f32 := (Memref.whole cc0_stg6_0 : Memref sig .tc .vmem S1x1024x2048 .f32).view

/-- The output block after a first-F-tile point. -/
def blockReset (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .bf16) (harg4 : arg4.IsWhole) (arg5 : Memref sig .tc .vmem S1x1x512 .f32) (harg5 : arg5.IsWhole) (arg6 : Memref sig .tc .vmem S1x2048x512 .bf16) (harg6 : arg6.IsWhole) (arg7 : Memref sig .tc .vmem S1x1x2048 .f32) (harg7 : arg7.IsWhole) (arg8 : Memref sig .tc .vmem S1x1024x2048 .f32) (harg8 : arg8.IsWhole)
    (h1 : k0_cond1 i = 1#1) (h2 : ¬ k0_cond2 i = 1#1) (x0 x1 : Vec F S1x1024x2048 .bf16) (x2 : Vec F S1x512x2048 .bf16) (x3 : Vec F S1x1x512 .f32) (x4 : Vec F S1x2048x512 .bf16) (x5 : Vec F S1x1x2048 .f32) : Vec F S1x1024x2048 .f32 :=
  outView.read (Elt F) (outView.writes (Elt F) outView.junk (runReset c i arg2 harg2 arg3 harg3 arg4 harg4 arg5 harg5 arg6 harg6 arg7 harg7 arg8 harg8 h1 h2 x0 x1 x2 x3 x4 x5).1)

/-- The output block after a later point, over the running contents `acc`. -/
def blockAccum (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .bf16) (harg4 : arg4.IsWhole) (arg5 : Memref sig .tc .vmem S1x1x512 .f32) (harg5 : arg5.IsWhole) (arg6 : Memref sig .tc .vmem S1x2048x512 .bf16) (harg6 : arg6.IsWhole) (arg7 : Memref sig .tc .vmem S1x1x2048 .f32) (harg7 : arg7.IsWhole) (arg8 : Memref sig .tc .vmem S1x1024x2048 .f32) (harg8 : arg8.IsWhole)
    (h1 : ¬ k0_cond1 i = 1#1) (h2 : k0_cond2 i = 1#1) (x0 x1 : Vec F S1x1024x2048 .bf16) (x2 : Vec F S1x512x2048 .bf16) (x3 : Vec F S1x1x512 .f32) (x4 : Vec F S1x2048x512 .bf16) (x5 : Vec F S1x1x2048 .f32) (acc : Vec F S1x1024x2048 .f32) : Vec F S1x1024x2048 .f32 :=
  outView.read (Elt F) (outView.writes (Elt F) outView.junk (runAccum c i arg2 harg2 arg3 harg3 arg4 harg4 arg5 harg5 arg6 harg6 arg7 harg7 arg8 harg8 h1 h2 x0 x1 x2 x3 x4 x5 acc).1)

/-! ## The staging memrefs the pipeline hands the body at a point -/

abbrev stg0 (t : Fin cfg0.N) : Memref sig .tc .vmem S1x1024x2048 .bf16 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x1024x2048 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x512x2048 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x1x512 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S1x2048x512 .bf16 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x1x2048 .f32 := win0_5.stage (cfg0.slots t 5)
abbrev whole5 (t : Fin cfg0.N) : (stg5 t).IsWhole := hstage0_5 ((cfg0.slots t 5).cast nbuf0_5)
abbrev stg6 (t : Fin cfg0.N) : Memref sig .tc .vmem S1x1024x2048 .f32 := win0_6.stage (cfg0.slots t 6)
abbrev whole6 (t : Fin cfg0.N) : (stg6 t).IsWhole := hstage0_6 ((cfg0.slots t 6).cast nbuf0_6)

/-! ## The output block, point by point -/

/-- What the output's staging buffer holds after the body at position `n`. -/
def blockAfter (c : Dev nD) : (n : ℕ) → n < cfg0.N → Vec F S1x1024x2048 .f32
  | 0, hn => blockReset c (grid0.coords ⟨0, hn⟩) (stg0 ⟨0, hn⟩) (whole0 ⟨0, hn⟩) (stg1 ⟨0, hn⟩) (whole1 ⟨0, hn⟩) (stg2 ⟨0, hn⟩) (whole2 ⟨0, hn⟩) (stg3 ⟨0, hn⟩) (whole3 ⟨0, hn⟩) (stg4 ⟨0, hn⟩) (whole4 ⟨0, hn⟩) (stg5 ⟨0, hn⟩) (whole5 ⟨0, hn⟩) (stg6 ⟨0, hn⟩) (whole6 ⟨0, hn⟩)
      ((reset_iff ⟨0, hn⟩).mpr (Nat.zero_mod _)) (fun h => (accum_iff ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      blockReset c (grid0.coords ⟨n + 1, hn⟩) (stg0 ⟨n + 1, hn⟩) (whole0 ⟨n + 1, hn⟩) (stg1 ⟨n + 1, hn⟩) (whole1 ⟨n + 1, hn⟩) (stg2 ⟨n + 1, hn⟩) (whole2 ⟨n + 1, hn⟩) (stg3 ⟨n + 1, hn⟩) (whole3 ⟨n + 1, hn⟩) (stg4 ⟨n + 1, hn⟩) (whole4 ⟨n + 1, hn⟩) (stg5 ⟨n + 1, hn⟩) (whole5 ⟨n + 1, hn⟩) (stg6 ⟨n + 1, hn⟩) (whole6 ⟨n + 1, hn⟩)
        ((reset_iff ⟨n + 1, hn⟩).mpr h0) (fun h => (accum_iff ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      blockAccum c (grid0.coords ⟨n + 1, hn⟩) (stg0 ⟨n + 1, hn⟩) (whole0 ⟨n + 1, hn⟩) (stg1 ⟨n + 1, hn⟩) (whole1 ⟨n + 1, hn⟩) (stg2 ⟨n + 1, hn⟩) (whole2 ⟨n + 1, hn⟩) (stg3 ⟨n + 1, hn⟩) (whole3 ⟨n + 1, hn⟩) (stg4 ⟨n + 1, hn⟩) (whole4 ⟨n + 1, hn⟩) (stg5 ⟨n + 1, hn⟩) (whole5 ⟨n + 1, hn⟩) (stg6 ⟨n + 1, hn⟩) (whole6 ⟨n + 1, hn⟩)
        (fun h => h0 ((reset_iff ⟨n + 1, hn⟩).mp h)) ((accum_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
        (blockAfter c n (Nat.lt_of_succ_lt hn))

theorem blockAfter_reset (c : Dev nD) (t : Fin cfg0.N) (h0 : t.val % 8 = 0) :
    blockAfter m c t.val t.isLt = blockReset c (grid0.coords t) (stg0 t) (whole0 t) (stg1 t) (whole1 t) (stg2 t) (whole2 t) (stg3 t) (whole3 t) (stg4 t) (whole4 t) (stg5 t) (whole5 t) (stg6 t) (whole6 t)
      ((reset_iff t).mpr h0) (fun h => (accum_iff t).mp h h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem blockAfter_accum (c : Dev nD) (t : Fin cfg0.N) (h0 : ¬ t.val % 8 = 0) :
    blockAfter m c t.val t.isLt = blockAccum c (grid0.coords t) (stg0 t) (whole0 t) (stg1 t) (whole1 t) (stg2 t) (whole2 t) (stg3 t) (whole3 t) (stg4 t) (whole4 t) (stg5 t) (whole5 t) (stg6 t) (whole6 t)
      (fun h => h0 ((reset_iff t).mp h)) ((accum_iff t).mpr h0) (iblk m c 0 t) (iblk m c 1 t) (iblk m c 2 t) (iblk m c 3 t) (iblk m c 4 t) (iblk m c 5 t)
      (blockAfter m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input's buffer at its block and the output's at
    `blockAfter`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = blockAfter m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At every point one of the two guards holds, so the output window is never idle. -/
theorem guards_cover : ∀ k : Fin 8,
    (!((Scalar.cmpi .ne (Scalar.extui (Scalar.cmpi .eq (BitVec.ofNat 32 k.val) (0#32)) : BitVec 32) (0#32)) == 1#1)
      && !((Scalar.cmpi .ne (Scalar.extui (Scalar.cmpi .ne (BitVec.ofNat 32 k.val) (0#32)) : BitVec 32) (0#32)) == 1#1)) = false := by
  decide

theorem out_live : ∀ i : grid0.Coords, cfg0.idle 6 i = false := fun i => guards_cover (i 1)

/-- At a later F-tile the output's staging buffer holds what the body left at the point before: the block index has
    not moved and the block was not written back in between. -/
theorem before6_accum (c : Dev nD) (t : Fin cfg0.N) (h0 : ¬ t.val % 8 = 0) (d) :
    (dats m 0 c).before 6 t d = blockAfter m c (t.val - 1) (Nat.lt_of_le_of_lt (Nat.sub_le _ _) t.isLt) := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    out_live (fun _ _ => rfl)]
  dsimp only [dats]

end Cert.KernelIdeal.Hand

end
-- ==== Proof.KernelIdeal.Body.lean ====
/-
  The body obligation at every grid point, the run of @main, and the frame: every weakly fair execution terminates,
  faults nowhere, and leaves the six argument arrays as launched.

  At a point t the inputs' staging buffers hold their blocks; whether t is a first F-tile (t ≡ 0 mod 8) decides which
  of the two body runs applies, and at a later F-tile the output's buffer holds what the point before left.  The
  pipeline's invariant passes through the body untouched, and the core owes nothing throughout.
-/
import proofs.«105749_g12060268167401_cont_fleet_796_14_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 64 := lt_of_lt_of_eq t.isLt (show cfg0.N = 64 from N_0)
  by_cases h0 : t.val % 8 = 0
  · rw [blockAfter_reset m c t h0]
    unfold blockReset
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((reset_iff t).mpr h0) (fun h => (accum_iff t).mp h h0)
      (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverReset c _ _ _ _ _ _ _ _ _ _ _ _ _ _ _ _ _ _ _ _ _ _ _)
  · rw [blockAfter_accum m c t h0]
    simp only [before6_accum m c t h0]
    unfold blockAccum
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runAccum c (grid0.coords t) _ _ _ _ _ _ _ _ _ _ _ _ _ _ (fun h => h0 ((reset_iff t).mp h)) ((accum_iff t).mpr h0)
      (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverAccum c _ _ _ _ _ _ _ _ _ _ _ _ _ _ _ _ _ _ _ _ _ _ _ _)

set_option maxHeartbeats 800000 in
/-- The library's body obligation, at every point: the output window is idle nowhere (`out_live`), so the obligation's
    case split on idleness falls to the plain case. -/
theorem body_obligation (c : Dev nD) : BodyObligation (dats (F := F) m 0 c) (defs₀ (F := F)) Variants.none () Set.univ := fun t => by
  rw [bigSep_W0, bigSep_W0]
  have hlive : cfg0.idle (6 : Fin 7) (cfg0.grid.coords t) = false := out_live _
  rw [hlive]
  show bodyPre m c t ⊢ wp frame (wpE (defs₀ (F := F)) Variants.none c none) Set.univ (bodyAt0 t) (fun _ => bodyPost m c t)
  exact sound_body m c t

set_option backward.isDefEq.respectTransparency.types false in
/-- Every weakly fair execution of @main terminates, every array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KernelIdeal.Stored.lean ====
/-
  What the body's one covering store leaves in the output block, as values: on the first F-tile the store's payload
  `k0_pay3` of the six input blocks (tile contribution plus output bias), on a later F-tile `k0_pay1` of the tile
  contribution `k0_pay2` and the running contents.  Generic in the float instance.
-/
import proofs.«105749_g12060268167401_cont_fleet_796_14_alg».proof.Proof.KernelIdeal.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

theorem zero_offsets : (![0, 0, 0] : Fin 3 → Nat) = fun _ => 0 := funext fun a => by fin_cases a <;> rfl

theorem blockReset_eq (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .bf16) (harg4 : arg4.IsWhole) (arg5 : Memref sig .tc .vmem S1x1x512 .f32) (harg5 : arg5.IsWhole) (arg6 : Memref sig .tc .vmem S1x2048x512 .bf16) (harg6 : arg6.IsWhole) (arg7 : Memref sig .tc .vmem S1x1x2048 .f32) (harg7 : arg7.IsWhole) (arg8 : Memref sig .tc .vmem S1x1024x2048 .f32) (harg8 : arg8.IsWhole)
    (h1 : k0_cond1 i = 1#1) (h2 : ¬ k0_cond2 i = 1#1) (x0 x1 : Vec F S1x1024x2048 .bf16) (x2 : Vec F S1x512x2048 .bf16) (x3 : Vec F S1x1x512 .f32) (x4 : Vec F S1x2048x512 .bf16) (x5 : Vec F S1x1x2048 .f32) :
    blockReset c i arg2 harg2 arg3 harg3 arg4 harg4 arg5 harg5 arg6 harg6 arg7 harg7 arg8 harg8 h1 h2 x0 x1 x2 x3 x4 x5 = k0_pay3 x0 x1 x2 x3 x4 x5 := by
  unfold blockReset
  rw [View.read_writes_eq_canon _ _ _ (coverReset c i arg2 harg2 arg3 harg3 arg4 harg4 arg5 harg5 arg6 harg6 arg7 harg7 arg8 harg8 h1 h2 x0 x1 x2 x3 x4 x5)]
  unfold runReset
  dsimp only
  sl_unfold_words
  rw [View.canon_unit_zero zero_offsets]
  simp only [View.readAt_eq_ld, harg2.read_unread, harg3.read_unread, harg4.read_unread, harg5.read_unread,
    harg6.read_unread, harg7.read_unread, View.ld_unit_zero (S := S1x1024x2048) zero_offsets,
    View.ld_unit_zero (S := S1x512x2048) zero_offsets, View.ld_unit_zero (S := S1x1x512) zero_offsets,
    View.ld_unit_zero (S := S1x2048x512) zero_offsets, View.ld_unit_zero (S := S1x1x2048) zero_offsets]

theorem blockAccum_eq (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .bf16) (harg4 : arg4.IsWhole) (arg5 : Memref sig .tc .vmem S1x1x512 .f32) (harg5 : arg5.IsWhole) (arg6 : Memref sig .tc .vmem S1x2048x512 .bf16) (harg6 : arg6.IsWhole) (arg7 : Memref sig .tc .vmem S1x1x2048 .f32) (harg7 : arg7.IsWhole) (arg8 : Memref sig .tc .vmem S1x1024x2048 .f32) (harg8 : arg8.IsWhole)
    (h1 : ¬ k0_cond1 i = 1#1) (h2 : k0_cond2 i = 1#1) (x0 x1 : Vec F S1x1024x2048 .bf16) (x2 : Vec F S1x512x2048 .bf16) (x3 : Vec F S1x1x512 .f32) (x4 : Vec F S1x2048x512 .bf16) (x5 : Vec F S1x1x2048 .f32) (acc : Vec F S1x1024x2048 .f32) :
    blockAccum c i arg2 harg2 arg3 harg3 arg4 harg4 arg5 harg5 arg6 harg6 arg7 harg7 arg8 harg8 h1 h2 x0 x1 x2 x3 x4 x5 acc = k0_pay1 (k0_pay2 x0 x1 x2 x3 x4) acc := by
  unfold blockAccum
  rw [View.read_writes_eq_canon _ _ _ (coverAccum c i arg2 harg2 arg3 harg3 arg4 harg4 arg5 harg5 arg6 harg6 arg7 harg7 arg8 harg8 h1 h2 x0 x1 x2 x3 x4 x5 acc)]
  unfold runAccum
  dsimp only
  sl_unfold_words
  rw [View.canon_unit_zero zero_offsets]
  simp only [View.readAt_eq_ld, harg2.read_unread, harg3.read_unread, harg4.read_unread, harg5.read_unread,
    harg6.read_unread, harg8.read_unread, View.ld_unit_zero (S := S1x1024x2048) zero_offsets,
    View.ld_unit_zero (S := S1x512x2048) zero_offsets, View.ld_unit_zero (S := S1x1x512) zero_offsets,
    View.ld_unit_zero (S := S1x2048x512) zero_offsets]

end Cert.KernelIdeal.Hand

end
-- ==== Proof.Spec.lean ====
/-
  The mathematics both programs compute, over the extended reals, and the one law that joins them.

  Per expert e and token t the hidden pre-activation is  u_j = Σ_d (x[e,t,d] + c[e,t,d]) · W1[e,j,d] + b1[e,j]  for the
  4096 hidden units j, and the result is  out[e,t,d'] = Σ_j gelu(u_j) · W2[e,d',j] + b2[e,d'],  gelu the tanh form with
  the programs' four literal words.  The kernel walks the hidden axis in 8 tiles of 512: the first tile's partial sum is
  stored together with b2, each later tile's is added to the running contents.  Addition of extended reals is
  commutative and associative, so the running contents after the last tile are the whole sum plus b2 (`running_last`);
  no distributivity, hence no finiteness of the inputs, is used.
-/
import Idealize.ShloMosaic.PureOps.Ideal
import Idealize.ShloMosaic.PureOps.Ideal.Laws
import Idealize.ShloMosaic.Lib.ValueIdx

noncomputable section

namespace Cert.FFN

open Idealize.ShloMosaic Idealize.ShloMosaic.ValueIdx

/-! ## Shapes -/

abbrev Tok : Shape := ⟨3, ![8, 1024, 2048]⟩
abbrev Up : Shape := ⟨3, ![8, 4096, 2048]⟩
abbrev UpBias : Shape := ⟨2, ![8, 4096]⟩
abbrev Down : Shape := ⟨3, ![8, 2048, 4096]⟩
abbrev DownBias : Shape := ⟨2, ![8, 2048]⟩
abbrev TokBlk : Shape := ⟨3, ![1, 1024, 2048]⟩
abbrev UpBlk : Shape := ⟨3, ![1, 512, 2048]⟩
abbrev UpBiasBlk : Shape := ⟨3, ![1, 1, 512]⟩
abbrev DownBlk : Shape := ⟨3, ![1, 2048, 512]⟩
abbrev DownBiasBlk : Shape := ⟨3, ![1, 1, 2048]⟩

/-! ## The activation -/

/-- tanh-form GELU, in the association the kernel computes it:
    u · (½ · (1 + tanh(√(2/π)-word · (u + 0.044715-word · (u · (u · u)))))). -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * (u * u))))))

/-! ## The hidden axis in 8 tiles of 512 -/

/-- Hidden unit `j` of tile `f`. -/
def hiddenIdx (f : Fin 8) (j : Fin 512) : Fin 4096 :=
  ⟨f.val * 512 + j.val, by have := f.isLt; have := j.isLt; omega⟩

/-- One tile's partial sum of a family over the hidden axis. -/
def tileSum (g : Fin 4096 → EReal) (f : Fin 8) : EReal := ∑ j : Fin 512, g (hiddenIdx f j)

/-- The running contents after tile `n`: the first tile's sum stored with the bias, each later tile's added. -/
def running (g : Fin 4096 → EReal) (b : EReal) : (n : ℕ) → n < 8 → EReal
  | 0, h => tileSum g ⟨0, h⟩ + b
  | n + 1, h => running g b n (Nat.lt_of_succ_lt h) + tileSum g ⟨n + 1, h⟩

/-- The eight tile sums together are the sum over the whole hidden axis: the hidden axis is the product of the tile
    axis and the within-tile axis, hidden unit `f · 512 + j` being unit `j` of tile `f`. -/
private theorem sum_tileSum (g : Fin 4096 → EReal) : ∑ f : Fin 8, tileSum g f = ∑ j : Fin 4096, g j := by
  rw [← Equiv.sum_comp (finProdFinEquiv : Fin 8 × Fin 512 ≃ Fin 4096) g, Fintype.sum_prod_type]
  refine Finset.sum_congr rfl fun f _ => Finset.sum_congr rfl fun j _ => ?_
  refine congrArg g (Fin.ext ?_)
  show f.val * 512 + j.val = j.val + 512 * f.val
  omega

/-- Eight summands added one at a time onto `t₀ + b` give the sum of the eight plus `b`: the bias is carried to the
    end by commutativity and associativity of the sum alone. -/
private theorem bias_last (t0 t1 t2 t3 t4 t5 t6 t7 b : EReal) :
    t0 + b + t1 + t2 + t3 + t4 + t5 + t6 + t7 = t0 + t1 + t2 + t3 + t4 + t5 + t6 + t7 + b := by
  ac_rfl

/-- After the last tile the running contents are the whole sum plus the bias. -/
theorem running_last (g : Fin 4096 → EReal) (b : EReal) :
    running g b 7 (by decide) = (∑ j : Fin 4096, g j) + b := by
  rw [← sum_tileSum g, Fin.sum_univ_eight]
  exact bias_last _ _ _ _ _ _ _ _ b

/-! ## The whole arrays -/

section Arrays
variable (x c : Tok.Idx → EReal) (w1 : Up.Idx → EReal) (b1 : UpBias.Idx → EReal)
  (w2 : Down.Idx → EReal) (b2 : DownBias.Idx → EReal)

/-- Pre-activation of hidden unit `j` for expert `e`, token `t`. -/
def hidden (e : Fin 8) (t : Fin 1024) (j : Fin 4096) : EReal :=
  (∑ d : Fin 2048, (x (ix3 e t d) + c (ix3 e t d)) * w1 (ix3 e j d)) + b1 (ix2 e j)

/-- Hidden unit `j`'s contribution to output feature `d'`. -/
def term (e : Fin 8) (t : Fin 1024) (d' : Fin 2048) (j : Fin 4096) : EReal :=
  gelu (hidden x c w1 b1 e t j) * w2 (ix3 e d' j)

/-- The result array. -/
def out (i : Tok.Idx) : EReal :=
  (∑ j : Fin 4096, term x c w1 b1 w2 (i 0) (i 1) (i 2) j) + b2 (ix2 (i 0) (i 2))

end Arrays

/-! ## One grid point's blocks -/

/-- The tile contribution computed from one grid point's input blocks, at row `r`, feature `d'`. -/
def tileOfBlocks (x0 x1 : TokBlk.Idx → EReal) (x2 : UpBlk.Idx → EReal) (x3 : UpBiasBlk.Idx → EReal)
    (x4 : DownBlk.Idx → EReal) (r : Fin 1024) (d' : Fin 2048) : EReal :=
  ∑ j : Fin 512, gelu ((∑ d : Fin 2048, (x0 (ix3 0 r d) + x1 (ix3 0 r d)) * x2 (ix3 0 j d)) + x3 (ix3 0 0 j))
    * x4 (ix3 0 d' j)

end Cert.FFN

end
-- ==== Proof.KernelIdeal.Payload.lean ====
/-
  The body's arithmetic, read index by index over the extended reals.

  From one grid point's input blocks the body computes the tile contribution
  o[r, d'] = Σ_{j<512} gelu(Σ_d (x0[0,r,d] + x1[0,r,d]) · x2[0,j,d] + x3[0,0,j]) · x4[0,d',j]
  (both matrix products start from a zero accumulator, and the changes of float format are the identity on extended
  reals); the first F-tile stores o + x5[0,0,d'], a later one  acc + o.
-/
import proofs.«105749_g12060268167401_cont_fleet_796_14_alg».proof.Proof.Gen.KernelIdeal.Skeleton
import proofs.«105749_g12060268167401_cont_fleet_796_14_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.SL.Sem
open Cert.KernelIdeal Cert.KernelIdeal.Gen Cert.FFN

/-! ## The two block products' operand indices -/

/-- First product, left operand: its row axis is the result's row. -/
theorem dotUp_lhs_0 (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
/-- First product, left operand: its column axis is the contracted one. -/
theorem dotUp_lhs_1 (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q
/-- First product, right operand: its row axis is the result's column. -/
theorem dotUp_rhs_0 (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
/-- First product, right operand: its column axis is the contracted one. -/
theorem dotUp_rhs_1 (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- Second product, left operand: its row axis is the result's row. -/
theorem dotDown_lhs_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
/-- Second product, left operand: its column axis is the contracted one. -/
theorem dotDown_lhs_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- Second product, right operand: its row axis is the result's column. -/
theorem dotDown_rhs_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
/-- Second product, right operand: its column axis is the contracted one. -/
theorem dotDown_rhs_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-! ## The two block products at an index -/

/-- The first product from the zero accumulator: entry (r, j) is Σ_d a[r,d] · b[j,d]. -/
theorem dotUp_apply (a : FVec Ideal S1024x2048 .bf16) (b : FVec Ideal S512x2048 .bf16) (r : Fin 1024) (j : Fin 512) :
    matmul (F := Ideal) dot_S1024x2048_S512x2048_S1024x512_1_1_0_0_n_n none a b (constant (F := Ideal) S1024x512 .f32 0x00000000#32) (ix2 r j)
      = ∑ d : Fin 2048, a (ix2 r d) * b (ix2 j d) := by
  simp only [matmul]
  rw [Ideal.matmul_constant_zero_apply, ← Equiv.sum_comp (ValueIdx.contrEquiv1 dot_S1024x2048_S512x2048_S1024x512_1_1_0_0_n_n 2048 rfl rfl).symm]
  refine Finset.sum_congr rfl fun k _ => ?_
  have hk := ValueIdx.contrEquiv1_symm_val dot_S1024x2048_S512x2048_S1024x512_1_1_0_0_n_n 2048 rfl rfl k
  have el : dot_S1024x2048_S512x2048_S1024x512_1_1_0_0_n_n.lhsIdx (ix2 r j) ((ValueIdx.contrEquiv1 dot_S1024x2048_S512x2048_S1024x512_1_1_0_0_n_n 2048 rfl rfl).symm k) = ix2 r k := funext fun a => Fin.ext (by
    match a with
    | ⟨0, _⟩ => exact dotUp_lhs_0 _ _
    | ⟨1, _⟩ => exact (dotUp_lhs_1 _ _).trans hk)
  have er : dot_S1024x2048_S512x2048_S1024x512_1_1_0_0_n_n.rhsIdx (ix2 r j) ((ValueIdx.contrEquiv1 dot_S1024x2048_S512x2048_S1024x512_1_1_0_0_n_n 2048 rfl rfl).symm k) = ix2 j k := funext fun a => Fin.ext (by
    match a with
    | ⟨0, _⟩ => exact dotUp_rhs_0 _ _
    | ⟨1, _⟩ => exact (dotUp_rhs_1 _ _).trans hk)
  rw [el, er]

/-- The second product from the zero accumulator: entry (r, d') is Σ_j a[r,j] · b[d',j]. -/
theorem dotDown_apply (a : FVec Ideal S1024x512 .bf16) (b : FVec Ideal S2048x512 .bf16) (r : Fin 1024) (d' : Fin 2048) :
    matmul (F := Ideal) dot_S1024x512_S2048x512_S1024x2048_1_1_0_0_n_n none a b (constant (F := Ideal) S1024x2048 .f32 0x00000000#32) (ix2 r d')
      = ∑ j : Fin 512, a (ix2 r j) * b (ix2 d' j) := by
  simp only [matmul]
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 r d') ((ValueIdx.contrEquiv1 dot_S1024x512_S2048x512_S1024x2048_1_1_0_0_n_n 512 rfl rfl).symm k) = ix2 r k := funext fun a => Fin.ext (by
    match a with
    | ⟨0, _⟩ => exact dotDown_lhs_0 _ _
    | ⟨1, _⟩ => exact (dotDown_lhs_1 _ _).trans hk)
  have er : dot_S1024x512_S2048x512_S1024x2048_1_1_0_0_n_n.rhsIdx (ix2 r d') ((ValueIdx.contrEquiv1 dot_S1024x512_S2048x512_S1024x2048_1_1_0_0_n_n 512 rfl rfl).symm k) = ix2 d' k := funext fun a => Fin.ext (by
    match a with
    | ⟨0, _⟩ => exact dotDown_rhs_0 _ _
    | ⟨1, _⟩ => exact (dotDown_rhs_1 _ _).trans hk)
  rw [el, er]

/-! ## The activation, pointwise -/

/-- The payload's chain of elementwise operations after the bias is the tanh-form GELU of the entry. -/
theorem act_apply (u : FVec Ideal S1024x512 .f32) (i : S1024x512.Idx) :
    (truncf .bf16 (mulf u (mulf (broadcast S1024x512 (Scalar.ofBits (F := Ideal) .f32 0x3F000000#32))
      (addf (broadcast S1024x512 (Scalar.ofBits (F := Ideal) .f32 0x3F800000#32))
        (tanh (mulf (broadcast S1024x512 (Scalar.ofBits (F := Ideal) .f32 0x3F4C422A#32))
          (addf u (mulf (broadcast S1024x512 (Scalar.ofBits (F := Ideal) .f32 0x3D372713#32)) (mulf u (mulf u u))))))))) bitsLt_bf16_f32 : FVec Ideal S1024x512 .bf16) i
      = gelu (u i) := rfl

/-! ## The payloads -/

/-- The tile contribution at row `r`, output feature `d'`. -/
theorem tile_apply (x0 x1 : Vec Ideal S1x1024x2048 .bf16) (x2 : Vec Ideal S1x512x2048 .bf16) (x3 : Vec Ideal S1x1x512 .f32)
    (x4 : Vec Ideal S1x2048x512 .bf16) (r : Fin 1024) (d' : Fin 2048) :
    k0_pay2 (F := Ideal) x0 x1 x2 x3 x4 (ix2 r d') = tileOfBlocks x0 x1 x2 x3 x4 r d' := by
  unfold k0_pay2 tileOfBlocks
  -- the second product, entry (r, d'), is a sum over the 512 hidden units of the tile
  refine (dotDown_apply _ _ r d').trans ?_
  refine Finset.sum_congr rfl fun j _ => ?_
  -- left factor: the activation of the biased first product; right factor: the down block under its cast
  refine (congrArg₂ (· * ·) (act_apply _ (ix2 r j)) (shapeCast_1ab_ab_apply x4 _ d' j)).trans ?_
  refine congrArg (fun t => gelu t * x4 (ix3 0 d' j)) ?_
  refine (addf_apply _ _ _).trans ?_
  refine congrArg₂ (· + ·) ?_ ?_
  · -- the first product, entry (r, j), over the 2048 input features
    refine (dotUp_apply _ _ r j).trans ?_
    refine Finset.sum_congr rfl fun d _ => ?_
    exact congrArg₂ (· * ·)
      ((addf_apply _ _ _).trans (congrArg₂ (· + ·) (shapeCast_1ab_ab_apply x0 _ r d) (shapeCast_1ab_ab_apply x1 _ r d)))
      (shapeCast_1ab_ab_apply x2 _ j d)
  · -- the bias row, broadcast over the 1024 rows
    exact (broadcastTo_1b_ab_apply _ _ r j).trans (shapeCast_1ab_ab_apply x3 _ 0 j)

/-- What the first F-tile stores: the tile contribution plus the output bias. -/
theorem reset_apply (x0 x1 : Vec Ideal S1x1024x2048 .bf16) (x2 : Vec Ideal S1x512x2048 .bf16) (x3 : Vec Ideal S1x1x512 .f32)
    (x4 : Vec Ideal S1x2048x512 .bf16) (x5 : Vec Ideal S1x1x2048 .f32) (r : Fin 1024) (d' : Fin 2048) :
    k0_pay3 (F := Ideal) x0 x1 x2 x3 x4 x5 (ix3 0 r d') = tileOfBlocks x0 x1 x2 x3 x4 r d' + x5 (ix3 0 0 d') := by
  unfold k0_pay3
  refine (shapeCast_ab_1ab_apply _ _ 0 r d').trans ?_
  refine (addf_apply _ _ _).trans ?_
  exact congrArg₂ (· + ·) (tile_apply x0 x1 x2 x3 x4 r d')
    ((broadcastTo_1b_ab_apply _ _ r d').trans (shapeCast_1ab_ab_apply x5 _ 0 d'))

/-- What a later F-tile stores: the running contents plus the tile contribution. -/
theorem accum_apply (o : FVec Ideal S1024x2048 .f32) (acc : Vec Ideal S1x1024x2048 .f32) (r : Fin 1024) (d' : Fin 2048) :
    k0_pay1 (F := Ideal) o acc (ix3 0 r d') = acc (ix3 0 r d') + o (ix2 r d') := by
  unfold k0_pay1
  refine (shapeCast_ab_1ab_apply _ _ 0 r d').trans ?_
  refine (addf_apply _ _ _).trans ?_
  exact congrArg (· + o (ix2 r d')) (shapeCast_1ab_ab_apply acc _ r d')

end Cert.KernelIdeal.Hand

end
-- ==== Proof.KernelIdeal.Blocks.lean ====
/-
  Each input window's block at a grid point, read entry by entry off the argument arrays.

  Point t = 8e + f is expert e, F-tile f.  The token blocks (x, cond) and the output bias block depend on e only; the
  W1 block is rows 512f … 512f+511 of W1[e], the W2 block the same columns of W2[e], and the b1 block is row 8e + f of
  b1 re-laid as 64 rows of 512, i.e. b1[e, 512f + j].  The host operations before the region only change the float
  format of x, cond, W1, W2 (the identity on extended reals) and re-lay b1 and b2.
-/
import proofs.«105749_g12060268167401_cont_fleet_796_14_alg».proof.Proof.Gen.KernelIdeal.Frame
import proofs.«105749_g12060268167401_cont_fleet_796_14_alg».proof.Proof.Spec
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.ShloMosaic.ValueIdx Idealize.SL.Sem
open Cert.KernelIdeal Cert.KernelIdeal.Gen Cert.FFN

variable (m : (ℓ : Loc nD τ sig) → Buf (Elt Ideal) ℓ)

/-- The expert and the F-tile of a grid point. -/
def expertOf (t : Fin cfg0.N) : Fin 8 := ⟨t.val / 8, by have := lt_of_lt_of_eq t.isLt (show cfg0.N = 64 from N_0); omega⟩
def tileOf (t : Fin cfg0.N) : Fin 8 := ⟨t.val % 8, by omega⟩

/-! The blocks and the argument arrays, each at its literal type. -/
abbrev xBlk (c : Dev nD) (t : Fin cfg0.N) : Vec Ideal S1x1024x2048 .bf16 := iblk m c 0 t
abbrev cBlk (c : Dev nD) (t : Fin cfg0.N) : Vec Ideal S1x1024x2048 .bf16 := iblk m c 1 t
abbrev w1Blk (c : Dev nD) (t : Fin cfg0.N) : Vec Ideal S1x512x2048 .bf16 := iblk m c 2 t
abbrev b1Blk (c : Dev nD) (t : Fin cfg0.N) : Vec Ideal S1x1x512 .f32 := iblk m c 3 t
abbrev w2Blk (c : Dev nD) (t : Fin cfg0.N) : Vec Ideal S1x2048x512 .bf16 := iblk m c 4 t
abbrev b2Blk (c : Dev nD) (t : Fin cfg0.N) : Vec Ideal S1x1x2048 .f32 := iblk m c 5 t
abbrev xArr (c : Dev nD) : Vec Ideal S8x1024x2048 .f32 := m ((c : Thread nD τ).loc main_arg0)
abbrev cArr (c : Dev nD) : Vec Ideal S8x1024x2048 .f32 := m ((c : Thread nD τ).loc main_arg1)
abbrev w1Arr (c : Dev nD) : Vec Ideal S8x4096x2048 .f32 := m ((c : Thread nD τ).loc main_arg2)
abbrev b1Arr (c : Dev nD) : Vec Ideal S8x4096 .f32 := m ((c : Thread nD τ).loc main_arg3)
abbrev w2Arr (c : Dev nD) : Vec Ideal S8x2048x4096 .f32 := m ((c : Thread nD τ).loc main_arg4)
abbrev b2Arr (c : Dev nD) : Vec Ideal S8x2048 .f32 := m ((c : Thread nD τ).loc main_arg5)

/-! The windows' index maps, decided once over the 64 grid points: with t = 8e + f the token blocks and the output bias
    block sit at block row e, the W1 block at (e, f), the W2 block at (e, ·, f), the b1 block at row t of the re-laid b1. -/

theorem xBlk_index : ∀ t : Fin cfg0.N, win0_0.index t 0 = t.val / 8 ∧ win0_0.index t 1 = 0 ∧ win0_0.index t 2 = 0 :=
  (by decide +kernel : ∀ t : Fin grid0.N, _)
theorem cBlk_index : ∀ t : Fin cfg0.N, win0_1.index t 0 = t.val / 8 ∧ win0_1.index t 1 = 0 ∧ win0_1.index t 2 = 0 :=
  (by decide +kernel : ∀ t : Fin grid0.N, _)
theorem w1Blk_index : ∀ t : Fin cfg0.N, win0_2.index t 0 = t.val / 8 ∧ win0_2.index t 1 = t.val % 8 ∧ win0_2.index t 2 = 0 :=
  (by decide +kernel : ∀ t : Fin grid0.N, _)
theorem b1Blk_index : ∀ t : Fin cfg0.N, win0_3.index t 0 = t.val ∧ win0_3.index t 1 = 0 ∧ win0_3.index t 2 = 0 :=
  (by decide +kernel : ∀ t : Fin grid0.N, _)
theorem w2Blk_index : ∀ t : Fin cfg0.N, win0_4.index t 0 = t.val / 8 ∧ win0_4.index t 1 = 0 ∧ win0_4.index t 2 = t.val % 8 :=
  (by decide +kernel : ∀ t : Fin grid0.N, _)
theorem b2Blk_index : ∀ t : Fin cfg0.N, win0_5.index t 0 = t.val / 8 ∧ win0_5.index t 1 = 0 ∧ win0_5.index t 2 = 0 :=
  (by decide +kernel : ∀ t : Fin grid0.N, _)

theorem xBlk_apply (c : Dev nD) (t : Fin cfg0.N) (r : Fin 1024) (d : Fin 2048) :
    xBlk m c t (ix3 0 r d) = xArr m c (ix3 (expertOf t) r d) := by
  -- the array the window reads is x with its float format changed: the same extended reals
  have e : @Eq (S8x1024x2048.Idx → EReal) (V m c main_v0) (truncf (F := Ideal) (φ := .f32) .bf16 (xArr m c) bitsLt_bf16_f32) := by
    dsimp only [V, hostOps0]; after_results
  show iblk m c 0 t (ix3 0 r d) = _
  unfold iblk
  rw [View.read_apply]
  show V m c main_v0 (((cfg0.win 0).blk t).view.emb (ix3 0 r d)) = _
  rw [e, truncf_apply]
  -- entry (0, r, d) of block (e, 0, 0) is entry (e, r, d) of the array
  refine congrArg (xArr m c) (funext fun a => Fin.ext ?_)
  obtain ⟨h0, h1, h2⟩ := xBlk_index t
  match a with
  | ⟨0, _⟩ => show win0_0.index t 0 * 1 + 1 * 0 = t.val / 8; rw [h0]; omega
  | ⟨1, _⟩ => show win0_0.index t 1 * 1024 + 1 * r.val = r.val; rw [h1]; omega
  | ⟨2, _⟩ => show win0_0.index t 2 * 2048 + 1 * d.val = d.val; rw [h2]; omega

theorem cBlk_apply (c : Dev nD) (t : Fin cfg0.N) (r : Fin 1024) (d : Fin 2048) :
    cBlk m c t (ix3 0 r d) = cArr m c (ix3 (expertOf t) r d) := by
  have e : @Eq (S8x1024x2048.Idx → EReal) (V m c main_v1) (truncf (F := Ideal) (φ := .f32) .bf16 (cArr m c) bitsLt_bf16_f32) := by
    dsimp only [V, hostOps0]; after_results
  show iblk m c 1 t (ix3 0 r d) = _
  unfold iblk
  rw [View.read_apply]
  show V m c main_v1 (((cfg0.win 1).blk t).view.emb (ix3 0 r d)) = _
  rw [e, truncf_apply]
  refine congrArg (cArr m c) (funext fun a => Fin.ext ?_)
  obtain ⟨h0, h1, h2⟩ := cBlk_index t
  match a with
  | ⟨0, _⟩ => show win0_1.index t 0 * 1 + 1 * 0 = t.val / 8; rw [h0]; omega
  | ⟨1, _⟩ => show win0_1.index t 1 * 1024 + 1 * r.val = r.val; rw [h1]; omega
  | ⟨2, _⟩ => show win0_1.index t 2 * 2048 + 1 * d.val = d.val; rw [h2]; omega

theorem w1Blk_apply (c : Dev nD) (t : Fin cfg0.N) (j : Fin 512) (d : Fin 2048) :
    w1Blk m c t (ix3 0 j d) = w1Arr m c (ix3 (expertOf t) (hiddenIdx (tileOf t) j) d) := by
  have e : @Eq (S8x4096x2048.Idx → EReal) (V m c main_v2) (truncf (F := Ideal) (φ := .f32) .bf16 (w1Arr m c) bitsLt_bf16_f32) := by
    dsimp only [V, hostOps0]; after_results
  show iblk m c 2 t (ix3 0 j d) = _
  unfold iblk
  rw [View.read_apply]
  show V m c main_v2 (((cfg0.win 2).blk t).view.emb (ix3 0 j d)) = _
  rw [e, truncf_apply]
  -- entry (0, j, d) of block (e, f, 0) is entry (e, 512 f + j, d) of the array
  refine congrArg (w1Arr m c) (funext fun a => Fin.ext ?_)
  obtain ⟨h0, h1, h2⟩ := w1Blk_index t
  match a with
  | ⟨0, _⟩ => show win0_2.index t 0 * 1 + 1 * 0 = t.val / 8; rw [h0]; omega
  | ⟨1, _⟩ => show win0_2.index t 1 * 512 + 1 * j.val = t.val % 8 * 512 + j.val; rw [h1]; omega
  | ⟨2, _⟩ => show win0_2.index t 2 * 2048 + 1 * d.val = d.val; rw [h2]; omega

theorem b1Blk_apply (c : Dev nD) (t : Fin cfg0.N) (j : Fin 512) :
    b1Blk m c t (ix3 0 0 j) = b1Arr m c (ix2 (expertOf t) (hiddenIdx (tileOf t) j)) := by
  -- the array the window reads is b1 re-laid as 64 rows of one row of 512
  have e : @Eq (S64x1x512.Idx → EReal) (V m c main_v4) (shapeCast S64x1x512 (b1Arr m c) shapeCasts_S8x4096_S64x1x512) := by
    dsimp only [V, hostOps0]; after_results; rfl
  show iblk m c 3 t (ix3 0 0 j) = _
  unfold iblk
  rw [View.read_apply]
  show V m c main_v4 (((cfg0.win 3).blk t).view.emb (ix3 0 0 j)) = _
  rw [e]
  obtain ⟨h0, h1, h2⟩ := b1Blk_index t
  -- entry (t, 0, j) of the re-laid array and entry (e, 512 f + j) of b1 are the same row-major position:
  -- 4096 e + 512 f + j = 512 (8 e + f) + j
  refine shapeCast_apply _ _ _ _ ?_
  rw [Shape.rowMajor_val_two, Shape.rowMajor_val_three]
  show t.val / 8 * 4096 + (t.val % 8 * 512 + j.val)
    = ((win0_3.index t 0 * 1 + 1 * 0) * 1 + (win0_3.index t 1 * 1 + 1 * 0)) * 512 + (win0_3.index t 2 * 512 + 1 * j.val)
  rw [h0, h1, h2]
  omega

theorem w2Blk_apply (c : Dev nD) (t : Fin cfg0.N) (d' : Fin 2048) (j : Fin 512) :
    w2Blk m c t (ix3 0 d' j) = w2Arr m c (ix3 (expertOf t) d' (hiddenIdx (tileOf t) j)) := by
  have e : @Eq (S8x2048x4096.Idx → EReal) (V m c main_v3) (truncf (F := Ideal) (φ := .f32) .bf16 (w2Arr m c) bitsLt_bf16_f32) := by
    dsimp only [V, hostOps0]; after_results
  show iblk m c 4 t (ix3 0 d' j) = _
  unfold iblk
  rw [View.read_apply]
  show V m c main_v3 (((cfg0.win 4).blk t).view.emb (ix3 0 d' j)) = _
  rw [e, truncf_apply]
  -- entry (0, d', j) of block (e, 0, f) is entry (e, d', 512 f + j) of the array
  refine congrArg (w2Arr m c) (funext fun a => Fin.ext ?_)
  obtain ⟨h0, h1, h2⟩ := w2Blk_index t
  match a with
  | ⟨0, _⟩ => show win0_4.index t 0 * 1 + 1 * 0 = t.val / 8; rw [h0]; omega
  | ⟨1, _⟩ => show win0_4.index t 1 * 2048 + 1 * d'.val = d'.val; rw [h1]; omega
  | ⟨2, _⟩ => show win0_4.index t 2 * 512 + 1 * j.val = t.val % 8 * 512 + j.val; rw [h2]; omega

theorem b2Blk_apply (c : Dev nD) (t : Fin cfg0.N) (d' : Fin 2048) :
    b2Blk m c t (ix3 0 0 d') = b2Arr m c (ix2 (expertOf t) d') := by
  -- the array the window reads is b2 with a unit axis inserted
  have e : @Eq (S8x1x2048.Idx → EReal) (V m c main_v5) (shapeCast S8x1x2048 (b2Arr m c) shapeCasts_S8x2048_S8x1x2048) := by
    dsimp only [V, hostOps0]; after_results; rfl
  show iblk m c 5 t (ix3 0 0 d') = _
  unfold iblk
  rw [View.read_apply]
  show V m c main_v5 (((cfg0.win 5).blk t).view.emb (ix3 0 0 d')) = _
  rw [e]
  obtain ⟨h0, h1, h2⟩ := b2Blk_index t
  -- entry (e, 0, d') of the re-laid array and entry (e, d') of b2 are the same row-major position
  refine shapeCast_apply _ _ _ _ ?_
  rw [Shape.rowMajor_val_two, Shape.rowMajor_val_three]
  show t.val / 8 * 2048 + d'.val
    = ((win0_5.index t 0 * 1 + 1 * 0) * 1 + (win0_5.index t 1 * 1 + 1 * 0)) * 2048 + (win0_5.index t 2 * 2048 + 1 * d'.val)
  rw [h0, h1, h2]
  omega

end Cert.KernelIdeal.Hand

end
-- ==== Proof.KernelIdeal.Running.lean ====
/-
  The output block's staging buffer, point by point, over the extended reals.

  At point t = 8e + f the buffer holds, at row r and feature d', the running contents after tile f of the family
  j ↦ gelu(u_j) · W2[e,d',j] for expert e and token r, started from b2[e,d']: the first F-tile stores its tile sum plus
  the bias, every later tile adds its tile sum to what the point before left (`Cert.FFN.running`).  By induction on
  the point; the expert does not change between the points of one expert's eight tiles.
-/
import proofs.«105749_g12060268167401_cont_fleet_796_14_alg».proof.Proof.KernelIdeal.Stored
import proofs.«105749_g12060268167401_cont_fleet_796_14_alg».proof.Proof.KernelIdeal.Payload
import proofs.«105749_g12060268167401_cont_fleet_796_14_alg».proof.Proof.KernelIdeal.Blocks

noncomputable section

namespace Cert.KernelIdeal.Hand

open Idealize.ShloMosaic Idealize.ShloMosaic.TcCoe Idealize.ShloMosaic.ValueIdx Idealize.SL.Sem
open Cert.KernelIdeal Cert.KernelIdeal.Gen Cert.FFN

variable (m : (ℓ : Loc nD τ sig) → Buf (Elt Ideal) ℓ)

/-- Hidden unit j's contribution to out[e, r, d'], from the argument arrays. -/
def contrib (c : Dev nD) (e : Fin 8) (r : Fin 1024) (d' : Fin 2048) : Fin 4096 → EReal :=
  term (xArr m c) (cArr m c) (w1Arr m c) (b1Arr m c) (w2Arr m c) e r d'

/-- The tile contribution computed from point t's blocks is tile f = t mod 8 of expert e = t div 8. -/
theorem tile_of_point (c : Dev nD) (t : Fin cfg0.N) (r : Fin 1024) (d' : Fin 2048) :
    tileOfBlocks (xBlk m c t) (cBlk m c t) (w1Blk m c t) (b1Blk m c t) (w2Blk m c t) r d'
      = tileSum (contrib m c (expertOf t) r d') (tileOf t) := by
  unfold tileOfBlocks tileSum contrib term FFN.hidden
  refine Finset.sum_congr rfl fun j _ => ?_
  rw [w2Blk_apply, b1Blk_apply]
  congr 3
  refine Finset.sum_congr rfl fun d _ => ?_
  rw [xBlk_apply, cBlk_apply, w1Blk_apply]

theorem running_congr (g : Fin 4096 → EReal) (b : EReal) {k k' : ℕ} (h : k = k') (hk : k < 8) (hk' : k' < 8) :
    running g b k hk = running g b k' hk' := by
  subst h; rfl

theorem div_succ_of_mod {n : ℕ} (h : ¬ (n + 1) % 8 = 0) : (n + 1) / 8 = n / 8 := by omega
theorem mod_succ_of_mod {n : ℕ} (h : ¬ (n + 1) % 8 = 0) : (n + 1) % 8 = n % 8 + 1 := by omega

/-- THE INVARIANT: after the body at position n the output block holds the running contents after tile n mod 8. -/
theorem blockAfter_apply (c : Dev nD) : ∀ (n : ℕ) (hn : n < cfg0.N) (r : Fin 1024) (d' : Fin 2048),
    (blockAfter m c n hn : Vec Ideal S1x1024x2048 .f32) (ix3 0 r d')
      = running (contrib m c (expertOf ⟨n, hn⟩) r d') (b2Arr m c (ix2 (expertOf ⟨n, hn⟩) d')) (n % 8) (Nat.mod_lt _ (by decide))
  | 0, hn, r, d' => by
    rw [blockAfter_reset m c ⟨0, hn⟩ rfl, blockReset_eq]
    show k0_pay3 (xBlk m c ⟨0, hn⟩) (cBlk m c ⟨0, hn⟩) (w1Blk m c ⟨0, hn⟩) (b1Blk m c ⟨0, hn⟩) (w2Blk m c ⟨0, hn⟩) (b2Blk m c ⟨0, hn⟩) (ix3 0 r d') = _
    rw [reset_apply, tile_of_point, b2Blk_apply]
    rfl
  | n + 1, hn, r, d' => by
    by_cases h0 : (n + 1) % 8 = 0
    · rw [blockAfter_reset m c ⟨n + 1, hn⟩ h0, blockReset_eq]
      show k0_pay3 (xBlk m c ⟨n + 1, hn⟩) (cBlk m c ⟨n + 1, hn⟩) (w1Blk m c ⟨n + 1, hn⟩) (b1Blk m c ⟨n + 1, hn⟩) (w2Blk m c ⟨n + 1, hn⟩) (b2Blk m c ⟨n + 1, hn⟩) (ix3 0 r d') = _
      rw [reset_apply, tile_of_point, b2Blk_apply]
      rw [running_congr _ _ h0 (Nat.mod_lt _ (by decide)) (by decide)]
      show _ = tileSum _ ⟨0, _⟩ + _
      congr 2
      exact Fin.ext h0
    · rw [blockAfter_accum m c ⟨n + 1, hn⟩ h0, blockAccum_eq]
      show k0_pay1 (k0_pay2 (xBlk m c ⟨n + 1, hn⟩) (cBlk m c ⟨n + 1, hn⟩) (w1Blk m c ⟨n + 1, hn⟩) (b1Blk m c ⟨n + 1, hn⟩) (w2Blk m c ⟨n + 1, hn⟩))
        (blockAfter m c n (Nat.lt_of_succ_lt hn)) (ix3 0 r d') = _
      rw [accum_apply, blockAfter_apply c n (Nat.lt_of_succ_lt hn) r d', tile_apply, tile_of_point]
      have he : expertOf ⟨n + 1, hn⟩ = expertOf ⟨n, Nat.lt_of_succ_lt hn⟩ := Fin.ext (div_succ_of_mod h0)
      rw [he, running_congr _ _ (mod_succ_of_mod h0) (Nat.mod_lt _ (by decide)) (by have := Nat.mod_lt n (show 0 < 8 by decide); have := mod_succ_of_mod h0; omega)]
      show _ = running _ _ (n % 8) _ + tileSum _ ⟨n % 8 + 1, _⟩
      congr 2
      exact Fin.ext (mod_succ_of_mod h0)

end Cert.KernelIdeal.Hand

end
-- ==== Proof.KernelIdeal.Result.lean ====
/-
  The result array after the run, over the extended reals: `Cert.FFN.out` of the six argument arrays.

  The output window's block index depends on the expert only, and the block is written back after the expert's last
  F-tile (points t ≡ 7 mod 8).  What is written back there is the running contents after tile 7, that is the whole
  sum over the hidden axis plus the output bias (`running_last`); the eight written blocks tile the array.
-/
import proofs.«105749_g12060268167401_cont_fleet_796_14_alg».proof.Proof.KernelIdeal.Running
import proofs.«105749_g12060268167401_cont_fleet_796_14_alg».proof.Proof.KernelIdeal.Body
import Idealize.ShloMosaic.Lib.Pipeline.Value

noncomputable section

namespace Cert.KernelIdeal.Hand

open Idealize.ShloMosaic Idealize.ShloMosaic.TcCoe Idealize.ShloMosaic.ValueIdx Idealize.SL.Sem
open Cert.KernelIdeal Cert.KernelIdeal.Gen Cert.FFN
open Idealize.ShloMosaic.Pipeline (Dat)

variable (m : (ℓ : Loc nD τ sig) → Buf (Elt Ideal) ℓ) (ρ : Dev nD → PrngReg)

/-- The result array: the specification's `out` of the argument arrays as launched. -/
def result (c : Dev nD) : Buf (Elt Ideal) ((c : Thread nD τ).loc main_v6) :=
  out (xArr m c) (cArr m c) (w1Arr m c) (b1Arr m c) (w2Arr m c) (b2Arr m c)

/-- The output window's block index at point t: the expert's block, the other two axes whole. -/
theorem out_index : ∀ t : Fin cfg0.N, win0_6.index t (0 : Fin 3) = t.val / 8 ∧ win0_6.index t (1 : Fin 3) = 0
    ∧ win0_6.index t (2 : Fin 3) = 0 :=
  (by decide +kernel : ∀ t : Fin grid0.N, _)

/-- What a write-back point writes is its block of `result`. -/
theorem flushed_eq (c : Dev nD) (t : Fin cfg0.N) (hf : (cfg0.win 6).flush t = true) :
    (dats m 0 c).flushed 6 t = ((cfg0.win 6).blk t).view.read (Elt Ideal) (result m c) := by
  have h7 : t.val % 8 = 7 := (flush0_6 t).mp hf
  show (cfg0.win 6).cut (grid0.coords t) ((dats m 0 c).after 6 t) = _
  rw [after6]
  obtain ⟨e0, e1, e2⟩ := out_index t
  funext y
  have hy0 : (y 0).val < 1 := (y 0).isLt
  have hy1 : (y 1).val < 1024 := (y 1).isLt
  have hy2 : (y 2).val < 2048 := (y 2).isLt
  rw [View.read_apply]
  show blockAfter m c t.val t.isLt ((cfg0.win 6).xinj (grid0.coords t) y) = result m c (((cfg0.win 6).blk t).view.emb y)
  have hx : (cfg0.win 6).xinj (grid0.coords t) y = ix3 (0 : Fin 1) (⟨(y 1).val, hy1⟩ : Fin 1024) (⟨(y 2).val, hy2⟩ : Fin 2048) :=
    funext fun a => Fin.ext (by
      match a with
      | ⟨0, _⟩ => show (y 0).val = 0; omega
      | ⟨1, _⟩ => rfl
      | ⟨2, _⟩ => rfl)
  have he : ((cfg0.win 6).blk t).view.emb y = ix3 (expertOf t) (⟨(y 1).val, hy1⟩ : Fin 1024) (⟨(y 2).val, hy2⟩ : Fin 2048) :=
    funext fun a => Fin.ext (by
      match a with
      | ⟨0, _⟩ => show win0_6.index t (0 : Fin 3) * 1 + 1 * (y 0).val = t.val / 8; rw [e0]; omega
      | ⟨1, _⟩ => show win0_6.index t (1 : Fin 3) * 1024 + 1 * (y 1).val = (y 1).val; rw [e1]; omega
      | ⟨2, _⟩ => show win0_6.index t (2 : Fin 3) * 2048 + 1 * (y 2).val = (y 2).val; rw [e2]; omega)
  rw [hx, he, blockAfter_apply, running_congr _ _ h7 (Nat.mod_lt _ (by decide)) (by decide), running_last]
  rfl

/-- An index of the result array is in point t's block iff each coordinate is in the block's range on its axis. -/
theorem mem_out_blk (t : Fin cfg0.N) (i : S8x1024x2048.Idx) :
    i ∈ ((cfg0.win 6).blk t).view.set ↔ ∀ a : Fin 3, win0_6.index t a * S1x1024x2048.size a ≤ (i a).val
      ∧ (i a).val < win0_6.index t a * S1x1024x2048.size a + S1x1024x2048.size a := by
  show i ∈ ((View.whole main_v6).slice (win0_6.rect t)).set ↔ _
  rw [View.set_slice_whole, Rect.mem_set_unit]
  exact Iff.rfl

/-- Every index of the result array lies in the block written back after its expert's last F-tile. -/
theorem covered (i : S8x1024x2048.Idx) :
    ∃ t : Fin cfg0.N, (cfg0.win 6).flush t = true ∧ i ∈ ((cfg0.win 6).blk t).view.set := by
  have hi0 : (i 0).val < 8 := (i 0).isLt
  have hi1 : (i 1).val < 1024 := (i 1).isLt
  have hi2 : (i 2).val < 2048 := (i 2).isLt
  have hN : (i 0).val * 8 + 7 < cfg0.N := by rw [show cfg0.N = 64 from N_0]; omega
  refine ⟨⟨(i 0).val * 8 + 7, hN⟩, (flush0_6 _).mpr (by show ((i 0).val * 8 + 7) % 8 = 7; omega), ?_⟩
  rw [mem_out_blk]
  obtain ⟨e0, e1, e2⟩ := out_index ⟨(i 0).val * 8 + 7, hN⟩
  have e0' : win0_6.index ⟨(i 0).val * 8 + 7, hN⟩ (0 : Fin 3) = (i 0).val := by rw [e0]; show ((i 0).val * 8 + 7) / 8 = _; omega
  intro a
  match a with
  | ⟨0, _⟩ => show win0_6.index ⟨(i 0).val * 8 + 7, hN⟩ (0 : Fin 3) * 1 ≤ (i 0).val ∧ (i 0).val < win0_6.index ⟨(i 0).val * 8 + 7, hN⟩ (0 : Fin 3) * 1 + 1; rw [e0']; omega
  | ⟨1, _⟩ => show win0_6.index ⟨(i 0).val * 8 + 7, hN⟩ (1 : Fin 3) * 1024 ≤ (i 1).val ∧ (i 1).val < win0_6.index ⟨(i 0).val * 8 + 7, hN⟩ (1 : Fin 3) * 1024 + 1024; rw [e1]; omega
  | ⟨2, _⟩ => show win0_6.index ⟨(i 0).val * 8 + 7, hN⟩ (2 : Fin 3) * 2048 ≤ (i 2).val ∧ (i 2).val < win0_6.index ⟨(i 0).val * 8 + 7, hN⟩ (2 : Fin 3) * 2048 + 2048; rw [e2]; omega

/-- So the result array ends holding `result`. -/
theorem final (c : Dev nD) : (dats m 0 c).arrAt 6 cfg0.N = result m c :=
  (dats m 0 c).arrAt_eq_of_cover 6 (result m c) (flushed_eq m c) (covered)

/-- The run, read: the result array at `result`, the six arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Hand

end
-- ==== Proof.Reference.Result.lean ====
/-
  The reference, read index by index over the extended reals, is the result array `Cert.FFN.out`:
  its two batched contractions are sums over the model axis (2048) and the hidden axis (4096), its biases are
  broadcast along the token axis, and its activation is the same tanh form with the same four literal words — the cube
  is associated (u·u)·u there and u·(u·u) in `gelu`, equal by commutativity of the product.
-/
import proofs.«105749_g12060268167401_cont_fleet_796_14_alg».proof.Proof.Gen.ReferenceIdeal.Run
import proofs.«105749_g12060268167401_cont_fleet_796_14_alg».proof.Proof.Gen.ReferenceIdeal.Read
import proofs.«105749_g12060268167401_cont_fleet_796_14_alg».proof.Proof.Spec

noncomputable section

namespace Cert.ReferenceIdeal.Hand

open Idealize.ShloMosaic Idealize.ShloMosaic.TcCoe Idealize.ShloMosaic.ValueIdx Idealize.SL.Sem
open Cert.ReferenceIdeal Cert.ReferenceIdeal.Gen Cert.ReferenceIdeal.Read Cert.FFN

/-- The reference's pre-activation array at `(e, t, j)` is `hidden`: the first contraction read as a sum over the model
    axis, the transposed weight read back at `(e, j, d)`, and the bias broadcast along the token axis. -/
private theorem preact_eq (x0 x1 : (⟨S8x1024x2048, .f32⟩ : BufTy).Contents (Elt Ideal)) (x2 : (⟨S8x4096x2048, .f32⟩ : BufTy).Contents (Elt Ideal))
    (x3 : (⟨S8x4096, .f32⟩ : BufTy).Contents (Elt Ideal)) (I : S8x1024x4096.Idx) :
    val_main_v5 (F := Ideal) x0 x1 x2 x3 I = hidden x0 x1 x2 x3 (I 0) (I 1) (I 2) := by
  have el : ∀ k : Fin 2048, lidx_main_v2 I k = ix3 (I 0) (I 1) k := fun k => funext fun a => by
    match a with
    | ⟨0, _⟩ => rfl
    | ⟨1, _⟩ => rfl
    | ⟨2, _⟩ => rfl
  have er : ∀ k : Fin 2048, idx_main_v1 (ridx_main_v2 I k) = ix3 (I 0) (I 2) k := fun k => funext fun a => by
    match a with
    | ⟨0, _⟩ => rfl
    | ⟨1, _⟩ => rfl
    | ⟨2, _⟩ => rfl
  have eb : idx_main_v3 (idx_main_v4 I) = ix2 (I 0) (I 2) := funext fun a => by
    match a with
    | ⟨0, _⟩ => rfl
    | ⟨1, _⟩ => rfl
  rw [val_main_v5_apply, val_main_v2_apply, val_main_v4_apply, val_main_v3_apply, eb]
  simp only [val_main_v0_apply, val_main_v1_apply, el, er, Ideal.addf_def, Ideal.mulf_def]
  rfl

/-- The reference's activation stage is `gelu` of its pre-activation: the same four literal words in the same places,
    the cube associated `(u·u)·u` there and `u·(u·u)` in `gelu`. -/
private theorem act_eq (x0 x1 : (⟨S8x1024x2048, .f32⟩ : BufTy).Contents (Elt Ideal)) (x2 : (⟨S8x4096x2048, .f32⟩ : BufTy).Contents (Elt Ideal))
    (x3 : (⟨S8x4096, .f32⟩ : BufTy).Contents (Elt Ideal)) (I : S8x1024x4096.Idx) :
    val_main_v18 (F := Ideal) x0 x1 x2 x3 I = gelu (val_main_v5 (F := Ideal) x0 x1 x2 x3 I) := by
  simp only [val_main_v18_apply, val_main_v17_apply, val_main_v16_apply, val_main_cst_2_apply, val_main_v15_apply,
    val_main_v14_apply, val_main_cst_1_apply, val_main_v13_apply, val_main_v12_apply, val_main_v11_apply,
    val_main_cst_0_apply, val_main_v10_apply, val_main_v9_apply, val_main_v8_apply, val_main_cst_apply,
    val_main_v7_apply, val_main_v6_apply]
  generalize val_main_v5 (F := Ideal) x0 x1 x2 x3 I = u
  simp only [Ideal.addf_def, Ideal.mulf_def, Ideal.hostUnary_tanh_def, Ideal.ofBits_def]
  unfold gelu
  rw [mul_comm (u * u) u]

theorem reference_is_out (x0 x1 : (⟨S8x1024x2048, .f32⟩ : BufTy).Contents (Elt Ideal)) (x2 : (⟨S8x4096x2048, .f32⟩ : BufTy).Contents (Elt Ideal))
    (x3 : (⟨S8x4096, .f32⟩ : BufTy).Contents (Elt Ideal)) (x4 : (⟨S8x2048x4096, .f32⟩ : BufTy).Contents (Elt Ideal))
    (x5 : (⟨S8x2048, .f32⟩ : BufTy).Contents (Elt Ideal)) :
    val_main_v23 (F := Ideal) x0 x1 x2 x3 x4 x5 = out x0 x1 x2 x3 x4 x5 := by
  funext i
  have el : ∀ k : Fin 4096, lidx_main_v20 i k = ix3 (i 0) (i 1) k := fun k => funext fun a => by
    match a with
    | ⟨0, _⟩ => rfl
    | ⟨1, _⟩ => rfl
    | ⟨2, _⟩ => rfl
  have er : ∀ k : Fin 4096, idx_main_v19 (ridx_main_v20 i k) = ix3 (i 0) (i 2) k := fun k => funext fun a => by
    match a with
    | ⟨0, _⟩ => rfl
    | ⟨1, _⟩ => rfl
    | ⟨2, _⟩ => rfl
  have eb : idx_main_v21 (idx_main_v22 i) = ix2 (i 0) (i 2) := funext fun a => by
    match a with
    | ⟨0, _⟩ => rfl
    | ⟨1, _⟩ => rfl
  rw [val_main_v23_apply, val_main_v20_apply, val_main_v22_apply, val_main_v21_apply, eb, Ideal.addf_def]
  unfold out
  congr 1
  refine Finset.sum_congr rfl fun k _ => ?_
  rw [act_eq, preact_eq, val_main_v19_apply, er, el]
  rfl

end Cert.ReferenceIdeal.Hand

end
-- ==== Proof.lean ====
/-
  The certificate of the fused per-expert feed-forward kernel against its reference.

  Both programs compute, for expert e, token t and output feature d',
      out[e,t,d'] = Σ_j gelu(Σ_d (x + cond)[e,t,d] · W1[e,j,d] + b1[e,j]) · W2[e,d',j] + b2[e,d']
  over the extended reals (changes of float format are the identity there).  The kernel walks the hidden axis j in
  eight tiles of 512 on a grid (expert, tile): the first tile stores its partial sum plus b2 into the output block, each
  later tile adds its partial sum to the block, and the block is written back after the last tile.  Sums of extended
  reals may be regrouped freely, so the block ends at the whole sum plus b2 — the reference's value.  No finiteness of
  the inputs is needed.

  The three frames: the two kernel programs by the body's run at each grid point (one run for a first tile, one for a
  later tile) under the pipeline's launch; the reference by its run with the result dropped.  The ideal pass rewrote
  nothing, so `preserves` is trivial.
-/
import proofs.«105749_g12060268167401_cont_fleet_796_14_alg».proof.Defs
import proofs.«105749_g12060268167401_cont_fleet_796_14_alg».proof.Proof.Gen.Kernel
import proofs.«105749_g12060268167401_cont_fleet_796_14_alg».proof.Proof.Gen.KernelIdeal
import proofs.«105749_g12060268167401_cont_fleet_796_14_alg».proof.Proof.Gen.ReferenceIdeal
import proofs.«105749_g12060268167401_cont_fleet_796_14_alg».proof.Proof.Gen.Pre_finite_inputs
import proofs.«105749_g12060268167401_cont_fleet_796_14_alg».proof.Proof.Kernel.Body
import proofs.«105749_g12060268167401_cont_fleet_796_14_alg».proof.Proof.KernelIdeal.Body
import proofs.«105749_g12060268167401_cont_fleet_796_14_alg».proof.Proof.KernelIdeal.Result
import proofs.«105749_g12060268167401_cont_fleet_796_14_alg».proof.Proof.Reference.Result
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance the kernel's result array ends at `out` of its arguments, and the reference's at its
    composed term of arguments that agree with them, which is the same `out`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Hand.reference_is_out,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
